-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 17
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S10000x128, .bf16⟩
  | .hbm, ⟨14, _⟩ => ⟨S10000x128, .bf16⟩
  | .hbm, ⟨15, _⟩ => ⟨S10000x128, .f32⟩
  | .hbm, ⟨16, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S400x128, .bf16⟩
  | .local _ .vmem, ⟨11, _⟩ => ⟨S400x128, .bf16⟩
  | .local _ .vmem, ⟨12, _⟩ => ⟨S400x128, .f32⟩
  | .local _ .vmem, ⟨13, _⟩ => ⟨S400x128, .f32⟩
  | .local _ .vmem, ⟨14, _⟩ => ⟨S400x10000, .f32⟩
  | .local _ .vmem, ⟨15, _⟩ => ⟨S400x10000, .f32⟩
  | .local _ .vmem, ⟨16, _⟩ => ⟨S10000x128, .bf16⟩
  | .local _ .vmem, ⟨17, _⟩ => ⟨S1x128, .f32⟩
  | .local _ .vmem, ⟨18, _⟩ => ⟨S128x128, .f32⟩
  | .local _ .vmem, ⟨19, _⟩ => ⟨S400x128, .f32⟩
  | .local _ .vmem, ⟨20, _⟩ => ⟨S400x128, .f32⟩
  | .local _ .vmem, ⟨21, _⟩ => ⟨S400x128, .f32⟩
  | .local _ .vmem, ⟨22, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc1_stg7_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11
abbrev cc1_sem7_0 : DmaSem sig := 12
abbrev cc1_sem7_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S128x128_S128x128 : S128x128.ShapeCasts S128x128
  shapeCasts_S400x128_S400x128 : S400x128.ShapeCasts S400x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .bf16 = 32 ∨ (Rect.block (s := S10000x128) S400x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v5) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6_1) S400x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S10000x256 : Shape := ⟨2, ![10000, 256]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x256, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Contract.lean ====
/-
  The kernel's three matrix products read at an index, on the extended reals.

  Each `tpu.matmul` of the kernel accumulates into a zero splat, so entry (r, q) of its result is the plain sum over the
  contracted coordinate k of lhs(r, k) · rhs(k, q). The contraction index of the printed dimension record has one
  axis; the sum over it is re-indexed to a sum over `Fin K`, and the operand indices the record computes are
  identified with the pairs (r, k) and (k, q), axis by axis.
-/
import proofs.«160552_g65979287601806_cont_sun_c4_486_5_alg».proof.Proof.Gen.KernelIdeal
import Idealize.ShloMosaic.PureOps.Ideal.Laws
import Idealize.ShloMosaic.Lib.ValueIdx

noncomputable section

namespace Cert.KernelIdeal.Contract

open Cert.KernelIdeal Cert.KernelIdeal.Gen Idealize.ShloMosaic Idealize.ShloMosaic.ValueIdx

/-! ## [10000, 128] × [128, 128] -/

theorem lhs_proj_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_proj_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_proj_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_proj_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `i` of the [10000, 128] × [128, 128] product into zero: the sum over k of lhs(i₀, k) · rhs(k, i₁). -/
theorem proj_apply {φ₁ φ₂ : FTy} (l : FVec Ideal S10000x128 φ₁) (r : FVec Ideal S128x128 φ₂) (i : S10000x128.Idx) :
    matmul dot_S10000x128_S128x128_S10000x128_1_0_0_1_n_n none l r (constant S10000x128 .f32 0x00000000#32) i
      = ∑ k : Fin 128, l (ix2 (i 0) k) * r (ix2 k (i 1)) := by
  unfold matmul
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx i ((contrEquiv1 dot_S10000x128_S128x128_S10000x128_1_0_0_1_n_n 128 rfl rfl).symm k) = ix2 (i 0) k := funext fun a => Fin.ext (by
    match a with
    | ⟨0, _⟩ => exact lhs_proj_0 _ _
    | ⟨1, _⟩ => exact (lhs_proj_1 _ _).trans hk)
  have er : dot_S10000x128_S128x128_S10000x128_1_0_0_1_n_n.rhsIdx i ((contrEquiv1 dot_S10000x128_S128x128_S10000x128_1_0_0_1_n_n 128 rfl rfl).symm k) = ix2 k (i 1) := funext fun a => Fin.ext (by
    match a with
    | ⟨0, _⟩ => exact (rhs_proj_0 _ _).trans hk
    | ⟨1, _⟩ => exact rhs_proj_1 _ _)
  rw [el, er]
  rfl

/-! ## [400, 10000] × [10000, 128] -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry `i` of the [400, 10000] × [10000, 128] product into zero: the sum over k of lhs(i₀, k) · rhs(k, i₁). -/
theorem agg_apply {φ₁ φ₂ : FTy} (l : FVec Ideal S400x10000 φ₁) (r : FVec Ideal S10000x128 φ₂) (i : S400x128.Idx) :
    matmul dot_S400x10000_S10000x128_S400x128_1_0_0_1_n_n none l r (constant S400x128 .f32 0x00000000#32) i
      = ∑ k : Fin 10000, l (ix2 (i 0) k) * r (ix2 k (i 1)) := by
  unfold matmul
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx i ((contrEquiv1 dot_S400x10000_S10000x128_S400x128_1_0_0_1_n_n 10000 rfl rfl).symm k) = ix2 (i 0) k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx i ((contrEquiv1 dot_S400x10000_S10000x128_S400x128_1_0_0_1_n_n 10000 rfl rfl).symm k) = ix2 k (i 1) := funext fun a => Fin.ext (by
    match a with
    | ⟨0, _⟩ => exact (rhs_agg_0 _ _).trans hk
    | ⟨1, _⟩ => exact rhs_agg_1 _ _)
  rw [el, er]
  rfl

/-! ## [400, 128] × [128, 128] -/

theorem lhs_out_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_out_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_out_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_out_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry `i` of the [400, 128] × [128, 128] product into zero: the sum over k of lhs(i₀, k) · rhs(k, i₁). -/
theorem out_apply {φ₁ φ₂ : FTy} (l : FVec Ideal S400x128 φ₁) (r : FVec Ideal S128x128 φ₂) (i : S400x128.Idx) :
    matmul dot_S400x128_S128x128_S400x128_1_0_0_1_n_n none l r (constant S400x128 .f32 0x00000000#32) i
      = ∑ k : Fin 128, l (ix2 (i 0) k) * r (ix2 k (i 1)) := by
  unfold matmul
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx i ((contrEquiv1 dot_S400x128_S128x128_S400x128_1_0_0_1_n_n 128 rfl rfl).symm k) = ix2 (i 0) k := funext fun a => Fin.ext (by
    match a with
    | ⟨0, _⟩ => exact lhs_out_0 _ _
    | ⟨1, _⟩ => exact (lhs_out_1 _ _).trans hk)
  have er : dot_S400x128_S128x128_S400x128_1_0_0_1_n_n.rhsIdx i ((contrEquiv1 dot_S400x128_S128x128_S400x128_1_0_0_1_n_n 128 rfl rfl).symm k) = ix2 k (i 1) := funext fun a => Fin.ext (by
    match a with
    | ⟨0, _⟩ => exact (rhs_out_0 _ _).trans hk
    | ⟨1, _⟩ => exact rhs_out_1 _ _)
  rw [el, er]
  rfl

end Cert.KernelIdeal.Contract

end
-- ==== Proof.GraphLayers.lean ====
/-
  The mathematics both programs compute, on the extended reals, entry by entry.

  A matrix is a function of a two-coordinate index. `mul A B` is the matrix product, entry (i, j) the sum over l of
  A(i, l) · B(l, j). `layer S g b` is one graph-convolution layer, `max (S · g + b, 0)` with the bias a row added
  to every row. The two-layer network with the concatenated embedding projected by `Wp` is written in its two
  arrangements:

  * `splitOut`: the projection of the first layer's embedding by the top half of `Wp`, plus the bias, plus the
    projection of the second layer's embedding by the bottom half;
  * `joinedOut`: the product of the row-wise concatenation `[h0 | h1]` with the whole `Wp`, plus the bias.

  `splitOut_eq_joinedOut`: they agree. The sum over the 256 columns of the concatenation splits into the sum over its
  first 128 and its last 128 columns, and addition on the extended reals is commutative and associative (it is a
  commutative monoid, infinities included), so no finiteness of the entries is needed.
-/
import Idealize.ShloMosaic.PureOps.Ideal
import Idealize.ShloMosaic.PureOps.Ideal.Laws
import Idealize.ShloMosaic.Lib.ValueIdx

noncomputable section

namespace Cert.GraphLayers

open Idealize.ShloMosaic Idealize.ShloMosaic.ValueIdx

/-- An r × c matrix of extended reals. -/
abbrev Mat (r c : Nat) : Type := (⟨2, ![r, c]⟩ : Shape).Idx → EReal

/-- The float zero both programs clamp against. -/
abbrev zero : EReal := Ideal.ofBits .f32 0x00000000#32

/-- Entry (i, j) of the product: the sum over l of A(i, l) · B(l, j). -/
def mul {r k c : Nat} (A : Mat r k) (B : Mat k c) : Mat r c :=
  fun i => ∑ l : Fin k, A (ix2 (i 0) l) * B (ix2 l (i 1))

/-- One layer: `max (S · g + b, 0)`, the bias row `b` added to every row. (`S` may be a block of rows of the
    adjacency matrix: n × k against the k × d features.) -/
def layer {n k d : Nat} (S : Mat n k) (g : Mat k d) (b : Mat 1 d) : Mat n d :=
  fun i => max (mul S g i + b (ix2 0 (i 1))) zero

/-- A vector of 128 entries as a 1 × 128 row. -/
def row (b : (⟨1, ![128]⟩ : Shape).Idx → EReal) : Mat 1 128 := fun i => b (ix1 (i 1))

/-- A matrix plus a bias row. -/
def addRow {n d : Nat} (A : Mat n d) (b : Mat 1 d) : Mat n d :=
  fun i => A i + b (ix2 0 (i 1))

/-- An entry of a product depends on one row of the left factor and one column of the right. -/
theorem mul_congr {r r' k c c' : Nat} (A : Mat r k) (A' : Mat r' k) (B : Mat k c) (B' : Mat k c')
    (j : (⟨2, ![r, c]⟩ : Shape).Idx) (j' : (⟨2, ![r', c']⟩ : Shape).Idx)
    (hA : ∀ l : Fin k, A (ix2 (j 0) l) = A' (ix2 (j' 0) l)) (hB : ∀ l : Fin k, B (ix2 l (j 1)) = B' (ix2 l (j' 1))) :
    mul A B j = mul A' B' j' := by
  unfold mul
  exact Finset.sum_congr rfl fun l _ => by rw [hA l, hB l]

/-- A row of a product depends on that row of the left factor only. -/
theorem mul_row {r r' k c : Nat} (A : Mat r k) (A' : Mat r' k) (B : Mat k c) (i : Fin r) (i' : Fin r') (q : Fin c)
    (h : ∀ l : Fin k, A (ix2 i l) = A' (ix2 i' l)) : mul A B (ix2 i q) = mul A' B (ix2 i' q) := by
  show ∑ l : Fin k, A (ix2 i l) * B (ix2 l q) = ∑ l : Fin k, A' (ix2 i' l) * B (ix2 l q)
  exact Finset.sum_congr rfl fun l _ => by rw [h l]

/-- A row of a layer's output depends on that row of the adjacency matrix only. -/
theorem layer_row {n n' k d : Nat} (S : Mat n k) (S' : Mat n' k) (g : Mat k d) (b : Mat 1 d) (i : Fin n) (i' : Fin n') (q : Fin d)
    (h : ∀ l : Fin k, S (ix2 i l) = S' (ix2 i' l)) : layer S g b (ix2 i q) = layer S' g b (ix2 i' q) := by
  show max (mul S g (ix2 i q) + b (ix2 0 q)) zero = max (mul S' g (ix2 i' q) + b (ix2 0 q)) zero
  rw [mul_row S S' g i i' q h]

/-- The first layer's embedding. -/
def h0 (x : Mat 10000 128) (S : Mat 10000 10000) (W0 : Mat 128 128) (b0 : Mat 1 128) : Mat 10000 128 :=
  layer S (mul x W0) b0

/-- The second layer's embedding. -/
def h1 (x : Mat 10000 128) (S : Mat 10000 10000) (W0 : Mat 128 128) (b0 : Mat 1 128) (W1 : Mat 128 128) (b1 : Mat 1 128) :
    Mat 10000 128 :=
  layer S (mul (h0 x S W0 b0) W1) b1

/-- The projection in two halves: `(h0 · WpT + bp) + h1 · WpB`. -/
def splitOut (a0 a1 : Mat 10000 128) (WpT WpB : Mat 128 128) (bp : Mat 1 128) : Mat 10000 128 :=
  fun i => addRow (mul a0 WpT) bp i + mul a1 WpB i

/-- The two embeddings side by side: columns 0 … 127 from `a0`, columns 128 … 255 from `a1`. -/
def join (a0 a1 : Mat 10000 128) : Mat 10000 256 :=
  fun i => if h : (i 1).val < 128 then a0 (ix2 (i 0) ⟨(i 1).val, h⟩)
    else a1 (ix2 (i 0) ⟨(i 1).val - 128, by have := idx2_lt1 i; omega⟩)

/-- The projection at once: `[a0 | a1] · Wp + bp`. -/
def joinedOut (a0 a1 : Mat 10000 128) (Wp : Mat 256 128) (bp : Mat 1 128) : Mat 10000 128 :=
  addRow (mul (join a0 a1) Wp) bp

/-- The two arrangements agree when `WpT`, `WpB` are the top and bottom halves of `Wp`. -/
theorem splitOut_eq_joinedOut (a0 a1 : Mat 10000 128) (WpT WpB : Mat 128 128) (Wp : Mat 256 128) (bp : Mat 1 128)
    (hT : ∀ (l : Fin 128) (q : Fin 128), WpT (ix2 l q) = Wp (ix2 (⟨l.val, by omega⟩ : Fin 256) q))
    (hB : ∀ (l : Fin 128) (q : Fin 128), WpB (ix2 l q) = Wp (ix2 (⟨l.val + 128, by omega⟩ : Fin 256) q)) :
    splitOut a0 a1 WpT WpB bp = joinedOut a0 a1 Wp bp := by
  -- a sum over 256 columns is the sum over the first 128 plus the sum over the last 128
  have key : ∀ f : Fin 256 → EReal,
      ∑ l : Fin 256, f l = ∑ l : Fin 128, f ⟨l.val, by omega⟩ + ∑ l : Fin 128, f ⟨l.val + 128, by omega⟩ := by
    intro f
    have h := Fin.sum_univ_add (a := 128) (b := 128) (fun l : Fin (128 + 128) => f ⟨l.val, l.isLt⟩)
    refine (show ∑ l : Fin 256, f l = ∑ l : Fin (128 + 128), f ⟨l.val, l.isLt⟩ from rfl).trans (h.trans ?_)
    refine congrArg₂ (· + ·) rfl (Finset.sum_congr rfl fun l _ => congrArg f (Fin.ext ?_))
    show 128 + l.val = l.val + 128
    omega
  funext i
  unfold splitOut joinedOut addRow mul
  rw [key (fun l => join a0 a1 (ix2 (i 0) l) * Wp (ix2 l (i 1)))]
  -- the concatenation's first 128 columns are `a0`'s, its last 128 are `a1`'s
  have e0 : ∀ l : Fin 128, join a0 a1 (ix2 (i 0) (⟨l.val, by omega⟩ : Fin 256)) = a0 (ix2 (i 0) l) := by
    intro l
    unfold join
    rw [dif_pos (show ((ix2 (i 0) (⟨l.val, by omega⟩ : Fin 256)) 1).val < 128 from l.isLt)]
  have e1 : ∀ l : Fin 128, join a0 a1 (ix2 (i 0) (⟨l.val + 128, by omega⟩ : Fin 256)) = a1 (ix2 (i 0) l) := by
    intro l
    unfold join
    rw [dif_neg (show ¬ ((ix2 (i 0) (⟨l.val + 128, by omega⟩ : Fin 256)) 1).val < 128 from
      by show ¬ (l.val + 128 < 128); omega)]
    refine congrArg a1 (congrArg (ix2 (i 0)) (Fin.ext ?_))
    show l.val + 128 - 128 = l.val
    omega
  have s0 : ∑ l : Fin 128, a0 (ix2 (i 0) l) * WpT (ix2 l (i 1))
      = ∑ l : Fin 128, a0 (ix2 (i 0) l) * Wp (ix2 (⟨l.val, by omega⟩ : Fin 256) (i 1)) :=
    Finset.sum_congr rfl fun l _ => congrArg (a0 (ix2 (i 0) l) * ·) (hT l (i 1))
  have s1 : ∑ l : Fin 128, a1 (ix2 (i 0) l) * WpB (ix2 l (i 1))
      = ∑ l : Fin 128, a1 (ix2 (i 0) l) * Wp (ix2 (⟨l.val + 128, by omega⟩ : Fin 256) (i 1)) :=
    Finset.sum_congr rfl fun l _ => congrArg (a1 (ix2 (i 0) l) * ·) (hB l (i 1))
  simp only [e0, e1]
  rw [s0, s1]
  exact add_right_comm (G := EReal) _ _ _

end Cert.GraphLayers

end
-- ==== Proof.Payload.lean ====
/-
  What each kernel body stores, as a matrix expression of the blocks it loads, on the extended reals.

  A change of float format is the identity here, a shape cast to the same shape is the identity, the bias row broadcast
  over the block's rows is that row at the column, and each matrix product into zero is the plain product
  (Proof/Contract.lean). So:

  * the projection kernel stores `x · W0`;
  * the first aggregation kernel stores `h · W1` and `h · WpT + bp` where `h = max (s · g + b, 0)` is the layer's
    output on the block `s` of adjacency rows;
  * the second aggregation kernel stores `p + h · WpB` with `h` likewise and `p` the partial block it loads.
-/
import proofs.«160552_g65979287601806_cont_sun_c4_486_5_alg».proof.Proof.Gen.KernelIdeal.Skeleton
import proofs.«160552_g65979287601806_cont_sun_c4_486_5_alg».proof.Proof.Contract
import proofs.«160552_g65979287601806_cont_sun_c4_486_5_alg».proof.Proof.GraphLayers
import Idealize.ShloMosaic.Lib.Pipeline.Value
import Idealize.ShloMosaic.Lib.ValueIdx

noncomputable section

namespace Cert.KernelIdeal.Payload

open Cert.KernelIdeal Cert.KernelIdeal.Gen Cert.GraphLayers Idealize.ShloMosaic Idealize.ShloMosaic.ValueIdx

/-- A [1, 128] row broadcast over 400 rows, read at an index: the row at the column. -/
theorem row_bcast (b : FVec Ideal S1x128 .f32) (j : S400x128.Idx) :
    broadcastTo S400x128 (shapeCast S1x128 b shapeCasts_S1x128_S1x128) broadcasts_S1x128_S400x128 j = b (ix2 0 (j 1)) := by
  rw [shapeCast_self]
  refine broadcastTo_apply _ _ j (ix2 0 (j 1)) fun a => ?_
  match a with
  | ⟨0, _⟩ => show (0 : Nat) = if (1 : Nat) = 1 then 0 else (j 0).val; rw [if_pos rfl]
  | ⟨1, _⟩ => show (j 1).val = if (128 : Nat) = 1 then 0 else (j 1).val; rw [if_neg (by decide)]

/-- The projection kernel stores the product of its two blocks. -/
theorem proj (x : Vec Ideal S10000x128 .f32) (w : Vec Ideal S128x128 .f32) :
    k0_pay1 (F := Ideal) x w = mul (r := 10000) (k := 128) (c := 128) x w := by
  funext j
  unfold k0_pay1
  rw [truncf_apply, Contract.proj_apply]
  rfl

/-- The layer's output on a block `s` of adjacency rows, as the two aggregation kernels spell it:
    `max (s · g + b, 0)`. -/
theorem hidden_expr (s : Vec Ideal S400x10000 .f32) (g : Vec Ideal S10000x128 .bf16) (b : Vec Ideal S1x128 .f32) :
    maximumf (F := Ideal)
      (addf (matmul (φ₁ := .bf16) (φ₂ := .bf16) dot_S400x10000_S10000x128_S400x128_1_0_0_1_n_n none (truncf .bf16 s bitsLt_bf16_f32)
          (shapeCast S10000x128 g shapeCasts_S10000x128_S10000x128) (constant S400x128 .f32 0x00000000#32))
        (broadcastTo S400x128 (shapeCast S1x128 b shapeCasts_S1x128_S1x128) broadcasts_S1x128_S400x128))
      (broadcast S400x128 (Scalar.ofBits .f32 0x00000000#32))
      = layer (n := 400) (k := 10000) (d := 128) s g b := by
  funext j
  rw [maximumf_apply, addf_apply, broadcast_apply, Contract.agg_apply, row_bcast]
  simp only [truncf_apply, shapeCast_self]
  rfl

/-- The first aggregation kernel's hidden block. -/
theorem hidden (s : Vec Ideal S400x10000 .f32) (g : Vec Ideal S10000x128 .bf16) (b : Vec Ideal S1x128 .f32) :
    k1_pay1 (F := Ideal) s g b = layer (n := 400) (k := 10000) (d := 128) s g b := by
  unfold k1_pay1
  exact hidden_expr s g b

/-- The first aggregation kernel stores `h · W1` … -/
theorem next (s : Vec Ideal S400x10000 .f32) (g : Vec Ideal S10000x128 .bf16) (b : Vec Ideal S1x128 .f32)
    (w1 : Vec Ideal S128x128 .f32) :
    k1_pay2 (F := Ideal) s g b w1
      = mul (r := 400) (k := 128) (c := 128) (layer (n := 400) (k := 10000) (d := 128) s g b) w1 := by
  funext j
  unfold k1_pay2
  rw [truncf_apply, Contract.out_apply, hidden]
  rfl

/-- … and `h · WpT + bp`. -/
theorem partialOut (s : Vec Ideal S400x10000 .f32) (g : Vec Ideal S10000x128 .bf16) (b : Vec Ideal S1x128 .f32)
    (wpt : Vec Ideal S128x128 .f32) (bp : Vec Ideal S1x128 .f32) :
    k1_pay3 (F := Ideal) s g b wpt bp
      = addRow (mul (r := 400) (k := 128) (c := 128) (layer (n := 400) (k := 10000) (d := 128) s g b) wpt) bp := by
  funext j
  unfold k1_pay3
  rw [addf_apply, Contract.out_apply, row_bcast, hidden]
  simp only [shapeCast_self]
  rfl

/-- The second aggregation kernel stores `p + h · WpB`. -/
theorem finalOut (s : Vec Ideal S400x10000 .f32) (g : Vec Ideal S10000x128 .bf16) (b : Vec Ideal S1x128 .f32)
    (p : Vec Ideal S400x128 .f32) (wpb : Vec Ideal S128x128 .f32) :
    k2_pay1 (F := Ideal) s g b p wpb
      = fun j => p j + mul (r := 400) (k := 128) (c := 128) (layer (n := 400) (k := 10000) (d := 128) s g b) wpb j := by
  funext j
  unfold k2_pay1
  rw [addf_apply, Contract.out_apply, hidden_expr]
  simp only [shapeCast_self]
  rfl

end Cert.KernelIdeal.Payload

end
-- ==== Proof.Region0.lean ====
/-
  The projection region's result array.

  The region has one grid point and every window is its whole array, so what the one write-back writes is the body's
  stored value of the two argument arrays as the region finds them: the product `x · W0`.
-/
import proofs.«160552_g65979287601806_cont_sun_c4_486_5_alg».proof.Proof.Gen.KernelIdeal.Frame
import proofs.«160552_g65979287601806_cont_sun_c4_486_5_alg».proof.Proof.Payload
import Idealize.ShloMosaic.Lib.Pipeline.Value

set_option maxRecDepth 16384

noncomputable section

namespace Cert.KernelIdeal.RegionValue

open Cert.KernelIdeal Cert.KernelIdeal.Gen Cert.GraphLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's one block index, on every window and axis, is 0. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The product the projection region computes, of the arrays as it finds them. -/
abbrev G0 (c : Dev nD) : Mat 10000 128 := mul (r := 10000) (k := 128) (c := 128) (V c main_arg0) (V c main_arg2)

/-- The `x` window's block is the whole array. -/
theorem xblk (c : Dev nD) (t : Fin cfg0.N) : (iblk0 V c 0 t : Vec Ideal S10000x128 .f32) = V c main_arg0 := by
  obtain ⟨e0, e1, -⟩ := idx0 t
  funext y
  unfold iblk0
  rw [View.read_apply]
  show V c main_arg0 _ = V c main_arg0 y
  refine congrArg (V c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The `W0` window's block is the whole array. -/
theorem wblk (c : Dev nD) (t : Fin cfg0.N) : (iblk0 V c 1 t : Vec Ideal S128x128 .f32) = V c main_arg2 := by
  obtain ⟨-, -, e0, e1, -⟩ := idx0 t
  funext y
  unfold iblk0
  rw [View.read_apply]
  show V c main_arg2 _ = V c main_arg2 y
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What the one point writes back is the product, read through the result window's block. -/
theorem flushed0 (c : Dev nD) (t : Fin cfg0.N) :
    (dat0 V c).flushed 2 t = ((cfg0.win 2).blk t).view.read (Elt Ideal) (G0 V c) := by
  obtain ⟨-, -, -, -, e0, e1⟩ := idx0 t
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  show k0_pay1 (iblk0 V c 0 t) (iblk0 V c 1 t) j = G0 V c (((cfg0.win 2).blk t).view.emb j)
  refine (congrFun (Payload.proj (iblk0 V c 0 t) (iblk0 V c 1 t)) j).trans ?_
  rw [xblk V c t, wblk V c t]
  refine congrArg (G0 V c) (funext fun a => Fin.ext ?_)
  match a with
  | ⟨0, _⟩ => show (j 0).val = win0_2.index t (0 : Fin 2) * 10000 + 1 * (j 0).val; rw [e0]; omega
  | ⟨1, _⟩ => show (j 1).val = win0_2.index t (1 : Fin 2) * 128 + 1 * (j 1).val; rw [e1]; omega

/-- Membership in the result window's block at a point, axis by axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v5).slice (win0_2.rect t)).set ↔ _
  rw [View.set_slice_whole, Rect.mem_set_unit]
  exact Iff.rfl

/-- THE ARRAY after the region: the product, everywhere (the one block is the whole array). -/
theorem final0 (c : Dev nD) : (dat0 V c).arrAt 2 cfg0.N = G0 V c :=
  (dat0 V c).arrAt_eq_of_cover 2 (G0 V c) (fun t _ => flushed0 V c t) fun i => by
    obtain ⟨-, -, -, -, e0, e1⟩ := idx0 t0_0
    refine ⟨t0_0, flush0_2 t0_0, ?_⟩
    rw [mem_blk0]
    intro a
    have h0 := idx2_lt0 i
    have h1 := idx2_lt1 i
    match a with
    | ⟨0, _⟩ => show win0_2.index t0_0 (0 : Fin 2) * 10000 ≤ (i 0).val ∧ (i 0).val < win0_2.index t0_0 (0 : Fin 2) * 10000 + 10000; rw [e0]; omega
    | ⟨1, _⟩ => show win0_2.index t0_0 (1 : Fin 2) * 128 ≤ (i 1).val ∧ (i 1).val < win0_2.index t0_0 (1 : Fin 2) * 128 + 128; rw [e1]; omega

end Cert.KernelIdeal.RegionValue

end
-- ==== Proof.Region1.lean ====
/-
  The first aggregation region's two result arrays.

  The grid has 25 points; point t handles rows 400·t … 400·t + 399. The adjacency window's block at t is those rows of
  the adjacency matrix; the features `g`, the bias row, `W1`, the top half of `Wp` and the bias row `bp` are whole
  arrays at every point. The body stores `h · W1` and `h · WpT + bp` for the hidden block
  `h = max (s · g + b, 0)`, and a row of `h` depends only on that row of `s`; so point t's two blocks are rows
  400·t … of `(layer S g b) · W1` and of `(layer S g b) · WpT + bp`. The 25 blocks tile each array.
-/
import proofs.«160552_g65979287601806_cont_sun_c4_486_5_alg».proof.Proof.Gen.KernelIdeal.Frame
import proofs.«160552_g65979287601806_cont_sun_c4_486_5_alg».proof.Proof.Payload
import Idealize.ShloMosaic.Lib.Pipeline.Value

set_option maxRecDepth 16384

noncomputable section

namespace Cert.KernelIdeal.RegionValue1

open Cert.KernelIdeal Cert.KernelIdeal.Gen Cert.GraphLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

/-- The adjacency window and the two result windows move down one block of rows per point. -/
theorem idx_rows : ∀ t : Fin cfg1.N,
    win1_0.index t (0 : Fin 2) = t.val ∧ win1_0.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The other five windows stay at block (0, 0). -/
theorem idx_whole : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The input blocks -/

/-- The adjacency block at point t is rows 400·t … of the adjacency matrix. -/
theorem sblk (c : Dev nD) (t : Fin cfg1.N) (y : S400x10000.Idx) (k : S10000x10000.Idx)
    (h0 : (k 0).val = t.val * 400 + (y 0).val) (h1 : (k 1).val = (y 1).val) :
    (iblk1 V c 0 t : Vec Ideal S400x10000 .f32) y = (V c main_arg1 : S10000x10000.Idx → EReal) k := by
  obtain ⟨e0, e1, -⟩ := idx_rows t
  unfold iblk1
  rw [View.read_apply]
  show V c main_arg1 _ = V c main_arg1 k
  refine congrArg (V c main_arg1) (funext fun a => Fin.ext ?_)
  match a with
  | ⟨0, _⟩ => show win1_0.index t (0 : Fin 2) * 400 + 1 * (y 0).val = (k 0).val; rw [e0, h0]; omega
  | ⟨1, _⟩ => show win1_0.index t (1 : Fin 2) * 10000 + 1 * (y 1).val = (k 1).val; rw [e1, h1]; omega

/-- The features window's block is the whole array. -/
theorem gblk (c : Dev nD) (t : Fin cfg1.N) : (iblk1 V c 1 t : Vec Ideal S10000x128 .bf16) = V c main_v5 := by
  obtain ⟨e0, e1, -⟩ := idx_whole t
  funext y
  unfold iblk1
  rw [View.read_apply]
  show V c main_v5 _ = V c main_v5 y
  refine congrArg (V c main_v5) (funext fun a => Fin.ext ?_)
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The bias window's block is the whole row. -/
theorem bblk (c : Dev nD) (t : Fin cfg1.N) : (iblk1 V c 2 t : Vec Ideal S1x128 .f32) = V c main_v0 := by
  obtain ⟨-, -, e0, e1, -⟩ := idx_whole t
  funext y
  unfold iblk1
  rw [View.read_apply]
  show V c main_v0 _ = V c main_v0 y
  refine congrArg (V c main_v0) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The `W1` window's block is the whole array. -/
theorem w1blk (c : Dev nD) (t : Fin cfg1.N) : (iblk1 V c 3 t : Vec Ideal S128x128 .f32) = V c main_arg4 := by
  obtain ⟨-, -, -, -, e0, e1, -⟩ := idx_whole t
  funext y
  unfold iblk1
  rw [View.read_apply]
  show V c main_arg4 _ = V c main_arg4 y
  refine congrArg (V c main_arg4) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The window of `Wp`'s top half: its block is the whole array. -/
theorem wptblk (c : Dev nD) (t : Fin cfg1.N) : (iblk1 V c 4 t : Vec Ideal S128x128 .f32) = V c main_v3 := by
  obtain ⟨-, -, -, -, -, -, e0, e1, -⟩ := idx_whole t
  funext y
  unfold iblk1
  rw [View.read_apply]
  show V c main_v3 _ = V c main_v3 y
  refine congrArg (V c main_v3) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The window of the bias row `bp`: its block is the whole row. -/
theorem bpblk (c : Dev nD) (t : Fin cfg1.N) : (iblk1 V c 5 t : Vec Ideal S1x128 .f32) = V c main_v2 := by
  obtain ⟨-, -, -, -, -, -, -, -, e0, e1⟩ := idx_whole t
  funext y
  unfold iblk1
  rw [View.read_apply]
  show V c main_v2 _ = V c main_v2 y
  refine congrArg (V c main_v2) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-! ## The two result arrays -/

/-- The layer's output on the whole adjacency matrix, of the arrays as the region finds them. -/
abbrev H (c : Dev nD) : Mat 10000 128 :=
  layer (n := 10000) (k := 10000) (d := 128) (V c main_arg1) (V c main_v5) (V c main_v0)

/-- `h · W1`. -/
abbrev Gnext (c : Dev nD) : Mat 10000 128 := mul (r := 10000) (k := 128) (c := 128) (H V c) (V c main_arg4)

/-- `h · WpT + bp`. -/
abbrev Gpart (c : Dev nD) : Mat 10000 128 :=
  addRow (mul (r := 10000) (k := 128) (c := 128) (H V c) (V c main_v3)) (V c main_v2)

/-- A row of the hidden block at point t is row 400·t + r of the whole layer output. -/
theorem hidden_row (c : Dev nD) (t : Fin cfg1.N) (r : Fin 400) (R : Fin 10000) (hR : R.val = t.val * 400 + r.val) (l : Fin 128) :
    layer (n := 400) (k := 10000) (d := 128) (iblk1 V c 0 t) (V c main_v5) (V c main_v0) (ix2 r l) = H V c (ix2 R l) :=
  layer_row _ _ _ _ r R l fun l' => sblk V c t (ix2 r l') (ix2 R l') hR rfl

/-- What point t writes back to the first result: its block of `h · W1`. -/
theorem flushed_next (c : Dev nD) (t : Fin cfg1.N) :
    (dat1 V c).flushed 6 t = ((cfg1.win 6).blk t).view.read (Elt Ideal) (Gnext V c) := by
  obtain ⟨-, -, e0, e1, -⟩ := idx_rows t
  show (cfg1.win 6).cut (grid1.coords t) ((dat1 V c).after 6 t) = _
  rw [after1_6]
  unfold out1_6
  rw [View.canon_unit_zero hz]
  simp only [View.ld_unit_zero (S := S400x10000) hz, View.ld_unit_zero (S := S10000x128) hz,
    View.ld_unit_zero (S := S1x128) hz, View.ld_unit_zero (S := S128x128) hz]
  funext j
  show k1_pay2 (iblk1 V c 0 t) (iblk1 V c 1 t) (iblk1 V c 2 t) (iblk1 V c 3 t) j
    = Gnext V c (((cfg1.win 6).blk t).view.emb j)
  refine (congrFun (Payload.next (iblk1 V c 0 t) (iblk1 V c 1 t) (iblk1 V c 2 t) (iblk1 V c 3 t)) j).trans ?_
  rw [gblk V c t, bblk V c t, w1blk V c t]
  have hj0 := idx2_lt0 j
  have hR : ((((cfg1.win 6).blk t).view.emb j) 0).val = t.val * 400 + (j 0).val := by
    show win1_6.index t (0 : Fin 2) * 400 + 1 * (j 0).val = _; rw [e0]; omega
  have hC : ((((cfg1.win 6).blk t).view.emb j) 1).val = (j 1).val := by
    show win1_6.index t (1 : Fin 2) * 128 + 1 * (j 1).val = _; rw [e1]; omega
  refine mul_congr _ _ _ _ j _ (fun l => hidden_row V c t (j 0) _ hR l) (fun l => ?_)
  exact congrArg (V c main_arg4) (funext fun a => Fin.ext (by
    match a with
    | ⟨0, _⟩ => rfl
    | ⟨1, _⟩ => exact hC.symm))

/-- What point t writes back to the second result: its block of `h · WpT + bp`. -/
theorem flushed_part (c : Dev nD) (t : Fin cfg1.N) :
    (dat1 V c).flushed 7 t = ((cfg1.win 7).blk t).view.read (Elt Ideal) (Gpart V c) := by
  obtain ⟨-, -, -, -, e0, e1⟩ := idx_rows t
  show (cfg1.win 7).cut (grid1.coords t) ((dat1 V c).after 7 t) = _
  rw [after1_7]
  unfold out1_7
  rw [View.canon_unit_zero hz]
  simp only [View.ld_unit_zero (S := S400x10000) hz, View.ld_unit_zero (S := S10000x128) hz,
    View.ld_unit_zero (S := S1x128) hz, View.ld_unit_zero (S := S128x128) hz]
  funext j
  show k1_pay3 (iblk1 V c 0 t) (iblk1 V c 1 t) (iblk1 V c 2 t) (iblk1 V c 4 t) (iblk1 V c 5 t) j
    = Gpart V c (((cfg1.win 7).blk t).view.emb j)
  refine (congrFun (Payload.partialOut (iblk1 V c 0 t) (iblk1 V c 1 t) (iblk1 V c 2 t) (iblk1 V c 4 t) (iblk1 V c 5 t)) j).trans ?_
  rw [gblk V c t, bblk V c t, wptblk V c t, bpblk V c t]
  have hj0 := idx2_lt0 j
  have hR : ((((cfg1.win 7).blk t).view.emb j) 0).val = t.val * 400 + (j 0).val := by
    show win1_7.index t (0 : Fin 2) * 400 + 1 * (j 0).val = _; rw [e0]; omega
  have hC : ((((cfg1.win 7).blk t).view.emb j) 1).val = (j 1).val := by
    show win1_7.index t (1 : Fin 2) * 128 + 1 * (j 1).val = _; rw [e1]; omega
  have hcol : ∀ (k : Fin 128), (ix2 k (j 1) : S128x128.Idx) = ix2 k ((((cfg1.win 7).blk t).view.emb j) 1) := fun k =>
    funext fun a => Fin.ext (by
      match a with
      | ⟨0, _⟩ => rfl
      | ⟨1, _⟩ => exact hC.symm)
  have hrow : (ix2 (0 : Fin 1) (j 1) : S1x128.Idx) = ix2 0 ((((cfg1.win 7).blk t).view.emb j) 1) :=
    funext fun a => Fin.ext (by
      match a with
      | ⟨0, _⟩ => rfl
      | ⟨1, _⟩ => exact hC.symm)
  show mul _ (V c main_v3) j + V c main_v2 (ix2 0 (j 1)) = mul _ (V c main_v3) _ + V c main_v2 (ix2 0 _)
  rw [hrow]
  refine congrArg (· + _) ?_
  exact mul_congr _ _ _ _ j _ (fun l => hidden_row V c t (j 0) _ hR l) (fun l => congrArg (V c main_v3) (hcol l))

/-! ## The blocks tile the arrays -/

theorem mem_blk_next (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v6_0).slice (win1_6.rect t)).set ↔ _
  rw [View.set_slice_whole, Rect.mem_set_unit]
  exact Iff.rfl

theorem mem_blk_part (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_v6_1).slice (win1_7.rect t)).set ↔ _
  rw [View.set_slice_whole, Rect.mem_set_unit]
  exact Iff.rfl

/-- The point whose blocks hold row r: r / 400. -/
def pointOf (i : S10000x128.Idx) : Fin cfg1.N :=
  ⟨(i 0).val / 400, by rw [show cfg1.N = 25 from N_1]; have := idx2_lt0 i; omega⟩

/-- THE FIRST RESULT after the region: `h · W1`, everywhere. -/
theorem final_next (c : Dev nD) : (dat1 V c).arrAt 6 cfg1.N = Gnext V c :=
  (dat1 V c).arrAt_eq_of_cover 6 (Gnext V c) (fun t _ => flushed_next V c t) fun i => by
    obtain ⟨-, -, e0, e1, -⟩ := idx_rows (pointOf i)
    refine ⟨pointOf i, flush1_6 (pointOf i), ?_⟩
    rw [mem_blk_next]
    intro a
    have h0 := idx2_lt0 i
    have h1 := idx2_lt1 i
    have hp : (pointOf i).val = (i 0).val / 400 := rfl
    match a with
    | ⟨0, _⟩ => show win1_6.index (pointOf i) (0 : Fin 2) * 400 ≤ (i 0).val ∧ (i 0).val < win1_6.index (pointOf i) (0 : Fin 2) * 400 + 400; rw [e0, hp]; omega
    | ⟨1, _⟩ => show win1_6.index (pointOf i) (1 : Fin 2) * 128 ≤ (i 1).val ∧ (i 1).val < win1_6.index (pointOf i) (1 : Fin 2) * 128 + 128; rw [e1]; omega

/-- THE SECOND RESULT after the region: `h · WpT + bp`, everywhere. -/
theorem final_part (c : Dev nD) : (dat1 V c).arrAt 7 cfg1.N = Gpart V c :=
  (dat1 V c).arrAt_eq_of_cover 7 (Gpart V c) (fun t _ => flushed_part V c t) fun i => by
    obtain ⟨-, -, -, -, e0, e1⟩ := idx_rows (pointOf i)
    refine ⟨pointOf i, flush1_7 (pointOf i), ?_⟩
    rw [mem_blk_part]
    intro a
    have h0 := idx2_lt0 i
    have h1 := idx2_lt1 i
    have hp : (pointOf i).val = (i 0).val / 400 := rfl
    match a with
    | ⟨0, _⟩ => show win1_7.index (pointOf i) (0 : Fin 2) * 400 ≤ (i 0).val ∧ (i 0).val < win1_7.index (pointOf i) (0 : Fin 2) * 400 + 400; rw [e0, hp]; omega
    | ⟨1, _⟩ => show win1_7.index (pointOf i) (1 : Fin 2) * 128 ≤ (i 1).val ∧ (i 1).val < win1_7.index (pointOf i) (1 : Fin 2) * 128 + 128; rw [e1]; omega

end Cert.KernelIdeal.RegionValue1

end
-- ==== Proof.Region2.lean ====
/-
  The second aggregation region's result array.

  As in the first aggregation region the grid has 25 points and point t handles rows 400·t … 400·t + 399: the adjacency
  window's block and the partial-output window's block at t are those rows of their arrays; the features, the bias row
  and the bottom half of `Wp` are whole arrays at every point. The body stores `p + h · WpB` for the hidden block
  `h = max (s · g + b, 0)`, so point t's block is rows 400·t … of `P + (layer S g b) · WpB`, and the 25 blocks tile
  the array.
-/
import proofs.«160552_g65979287601806_cont_sun_c4_486_5_alg».proof.Proof.Gen.KernelIdeal.Frame
import proofs.«160552_g65979287601806_cont_sun_c4_486_5_alg».proof.Proof.Payload
import Idealize.ShloMosaic.Lib.Pipeline.Value

set_option maxRecDepth 16384

noncomputable section

namespace Cert.KernelIdeal.RegionValue2

open Cert.KernelIdeal Cert.KernelIdeal.Gen Cert.GraphLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

/-- The adjacency window, the partial-output window and the result window move down one block of rows per point. -/
theorem idx_rows : ∀ t : Fin cfg2.N,
    win2_0.index t (0 : Fin 2) = t.val ∧ win2_0.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The other three windows stay at block (0, 0). -/
theorem idx_whole : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-! ## The input blocks -/

/-- The adjacency block at point t is rows 400·t … of the adjacency matrix. -/
theorem sblk (c : Dev nD) (t : Fin cfg2.N) (y : S400x10000.Idx) (k : S10000x10000.Idx)
    (h0 : (k 0).val = t.val * 400 + (y 0).val) (h1 : (k 1).val = (y 1).val) :
    (iblk2 V c 0 t : Vec Ideal S400x10000 .f32) y = (V c main_arg1 : S10000x10000.Idx → EReal) k := by
  obtain ⟨e0, e1, -⟩ := idx_rows t
  unfold iblk2
  rw [View.read_apply]
  show V c main_arg1 _ = V c main_arg1 k
  refine congrArg (V c main_arg1) (funext fun a => Fin.ext ?_)
  match a with
  | ⟨0, _⟩ => show win2_0.index t (0 : Fin 2) * 400 + 1 * (y 0).val = (k 0).val; rw [e0, h0]; omega
  | ⟨1, _⟩ => show win2_0.index t (1 : Fin 2) * 10000 + 1 * (y 1).val = (k 1).val; rw [e1, h1]; omega

/-- The partial-output block at point t is rows 400·t … of the partial output. -/
theorem pblk (c : Dev nD) (t : Fin cfg2.N) (y : S400x128.Idx) (k : S10000x128.Idx)
    (h0 : (k 0).val = t.val * 400 + (y 0).val) (h1 : (k 1).val = (y 1).val) :
    (iblk2 V c 4 t : Vec Ideal S400x128 .f32) y = (V c main_v6_1 : S10000x128.Idx → EReal) k := by
  obtain ⟨-, -, e0, e1, -⟩ := idx_rows t
  unfold iblk2
  rw [View.read_apply]
  show V c main_v6_1 _ = V c main_v6_1 k
  refine congrArg (V c main_v6_1) (funext fun a => Fin.ext ?_)
  match a with
  | ⟨0, _⟩ => show win2_4.index t (0 : Fin 2) * 400 + 1 * (y 0).val = (k 0).val; rw [e0, h0]; omega
  | ⟨1, _⟩ => show win2_4.index t (1 : Fin 2) * 128 + 1 * (y 1).val = (k 1).val; rw [e1, h1]; omega

/-- The features window's block is the whole array. -/
theorem gblk (c : Dev nD) (t : Fin cfg2.N) : (iblk2 V c 1 t : Vec Ideal S10000x128 .bf16) = V c main_v6_0 := by
  obtain ⟨e0, e1, -⟩ := idx_whole t
  funext y
  unfold iblk2
  rw [View.read_apply]
  show V c main_v6_0 _ = V c main_v6_0 y
  refine congrArg (V c main_v6_0) (funext fun a => Fin.ext ?_)
  match a with
  | ⟨0, _⟩ => show win2_1.index t (0 : Fin 2) * 10000 + 1 * (y 0).val = (y 0).val; rw [e0]; omega
  | ⟨1, _⟩ => show win2_1.index t (1 : Fin 2) * 128 + 1 * (y 1).val = (y 1).val; rw [e1]; omega

/-- The bias window's block is the whole row. -/
theorem bblk (c : Dev nD) (t : Fin cfg2.N) : (iblk2 V c 2 t : Vec Ideal S1x128 .f32) = V c main_v1 := by
  obtain ⟨-, -, e0, e1, -⟩ := idx_whole t
  funext y
  unfold iblk2
  rw [View.read_apply]
  show V c main_v1 _ = V c main_v1 y
  refine congrArg (V c main_v1) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The window of `Wp`'s bottom half: its block is the whole array. -/
theorem wpbblk (c : Dev nD) (t : Fin cfg2.N) : (iblk2 V c 3 t : Vec Ideal S128x128 .f32) = V c main_v4 := by
  obtain ⟨-, -, -, -, e0, e1⟩ := idx_whole t
  funext y
  unfold iblk2
  rw [View.read_apply]
  show V c main_v4 _ = V c main_v4 y
  refine congrArg (V c main_v4) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-! ## The result array -/

/-- The layer's output on the whole adjacency matrix, of the arrays as the region finds them. -/
abbrev H (c : Dev nD) : Mat 10000 128 :=
  layer (n := 10000) (k := 10000) (d := 128) (V c main_arg1) (V c main_v6_0) (V c main_v1)

/-- The partial output, as the region finds it. -/
abbrev Part (c : Dev nD) : Mat 10000 128 := V c main_v6_1

/-- `P + h · WpB`. -/
abbrev Gout (c : Dev nD) : Mat 10000 128 :=
  fun i => Part V c i + mul (r := 10000) (k := 128) (c := 128) (H V c) (V c main_v4) i

/-- A row of the hidden block at point t is row 400·t + r of the whole layer output. -/
theorem hidden_row (c : Dev nD) (t : Fin cfg2.N) (r : Fin 400) (R : Fin 10000) (hR : R.val = t.val * 400 + r.val) (l : Fin 128) :
    layer (n := 400) (k := 10000) (d := 128) (iblk2 V c 0 t) (V c main_v6_0) (V c main_v1) (ix2 r l) = H V c (ix2 R l) :=
  layer_row _ _ _ _ r R l fun l' => sblk V c t (ix2 r l') (ix2 R l') hR rfl

/-- What point t writes back: its block of `P + h · WpB`. -/
theorem flushed_out (c : Dev nD) (t : Fin cfg2.N) :
    (dat2 V c).flushed 5 t = ((cfg2.win 5).blk t).view.read (Elt Ideal) (Gout V c) := by
  obtain ⟨-, -, -, -, e0, e1⟩ := idx_rows t
  show (cfg2.win 5).cut (grid2.coords t) ((dat2 V c).after 5 t) = _
  rw [after2_5]
  unfold out2_5
  rw [View.canon_unit_zero hz]
  simp only [View.ld_unit_zero (S := S400x10000) hz, View.ld_unit_zero (S := S10000x128) hz,
    View.ld_unit_zero (S := S1x128) hz, View.ld_unit_zero (S := S128x128) hz, View.ld_unit_zero (S := S400x128) hz]
  funext j
  show k2_pay1 (iblk2 V c 0 t) (iblk2 V c 1 t) (iblk2 V c 2 t) (iblk2 V c 4 t) (iblk2 V c 3 t) j
    = Gout V c (((cfg2.win 5).blk t).view.emb j)
  refine (congrFun (Payload.finalOut (iblk2 V c 0 t) (iblk2 V c 1 t) (iblk2 V c 2 t) (iblk2 V c 4 t) (iblk2 V c 3 t)) j).trans ?_
  rw [gblk V c t, bblk V c t, wpbblk V c t]
  have hj0 := idx2_lt0 j
  have hR : ((((cfg2.win 5).blk t).view.emb j) 0).val = t.val * 400 + (j 0).val := by
    show win2_5.index t (0 : Fin 2) * 400 + 1 * (j 0).val = _; rw [e0]; omega
  have hC : ((((cfg2.win 5).blk t).view.emb j) 1).val = (j 1).val := by
    show win2_5.index t (1 : Fin 2) * 128 + 1 * (j 1).val = _; rw [e1]; omega
  have hcol : ∀ (k : Fin 128), (ix2 k (j 1) : S128x128.Idx) = ix2 k ((((cfg2.win 5).blk t).view.emb j) 1) := fun k =>
    funext fun a => Fin.ext (by
      match a with
      | ⟨0, _⟩ => rfl
      | ⟨1, _⟩ => exact hC.symm)
  refine congrArg₂ (· + ·) (pblk V c t j _ hR hC) ?_
  exact mul_congr _ _ _ _ j _ (fun l => hidden_row V c t (j 0) _ hR l) (fun l => congrArg (V c main_v4) (hcol l))

/-! ## The blocks tile the array -/

theorem mem_blk_out (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v7).slice (win2_5.rect t)).set ↔ _
  rw [View.set_slice_whole, Rect.mem_set_unit]
  exact Iff.rfl

/-- The point whose block holds row r: r / 400. -/
def pointOf (i : S10000x128.Idx) : Fin cfg2.N :=
  ⟨(i 0).val / 400, by rw [show cfg2.N = 25 from N_2]; have := idx2_lt0 i; omega⟩

/-- THE RESULT after the region: `P + h · WpB`, everywhere. -/
theorem final_out (c : Dev nD) : (dat2 V c).arrAt 5 cfg2.N = Gout V c :=
  (dat2 V c).arrAt_eq_of_cover 5 (Gout V c) (fun t _ => flushed_out V c t) fun i => by
    obtain ⟨-, -, -, -, e0, e1⟩ := idx_rows (pointOf i)
    refine ⟨pointOf i, flush2_5 (pointOf i), ?_⟩
    rw [mem_blk_out]
    intro a
    have h0 := idx2_lt0 i
    have h1 := idx2_lt1 i
    have hp : (pointOf i).val = (i 0).val / 400 := rfl
    match a with
    | ⟨0, _⟩ => show win2_5.index (pointOf i) (0 : Fin 2) * 400 ≤ (i 0).val ∧ (i 0).val < win2_5.index (pointOf i) (0 : Fin 2) * 400 + 400; rw [e0, hp]; omega
    | ⟨1, _⟩ => show win2_5.index (pointOf i) (1 : Fin 2) * 128 ≤ (i 1).val ∧ (i 1).val < win2_5.index (pointOf i) (1 : Fin 2) * 128 + 128; rw [e1]; omega

end Cert.KernelIdeal.RegionValue2

end
-- ==== Proof.Chain.lean ====
/-
  The kernel's result array as one expression of the launch arrays.

  The contents of the TensorCore's buffers at each boundary of @main are a fold from the launch memory: the host
  stretch writes the three bias rows (reshapes of the bias vectors) and the two halves of `Wp` (slices); each region
  then replaces its result arrays by what its write-backs leave and keeps every other buffer. Reading the fold at the
  buffers each region's value mentions gives, at the last boundary,

      result = (h0 · WpT + bp) + h1 · WpB,   h0 = max (S · (x · W0) + b0, 0),   h1 = max (S · (h0 · W1) + b1, 0).
-/
import proofs.«160552_g65979287601806_cont_sun_c4_486_5_alg».proof.Proof.Gen.KernelIdeal.Frame
import proofs.«160552_g65979287601806_cont_sun_c4_486_5_alg».proof.Proof.Region0
import proofs.«160552_g65979287601806_cont_sun_c4_486_5_alg».proof.Proof.Region1
import proofs.«160552_g65979287601806_cont_sun_c4_486_5_alg».proof.Proof.Region2
import Idealize.ShloMosaic.Lib.StableHlo.Run

set_option maxRecDepth 16384

noncomputable section

namespace Cert.KernelIdeal.Chain

open Cert.KernelIdeal Cert.KernelIdeal.Gen Cert.GraphLayers
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The launch arrays, and what the host stretch makes of them -/

abbrev aX (c : Dev nD) : Mat 10000 128 := m ((c.tc : Thread nD τ).loc main_arg0)
abbrev aS (c : Dev nD) : Mat 10000 10000 := m ((c.tc : Thread nD τ).loc main_arg1)
abbrev aW0 (c : Dev nD) : Mat 128 128 := m ((c.tc : Thread nD τ).loc main_arg2)
abbrev aW1 (c : Dev nD) : Mat 128 128 := m ((c.tc : Thread nD τ).loc main_arg4)
/-- The bias vectors as rows. -/
abbrev b0r (c : Dev nD) : Mat 1 128 := shapeCast S1x128 (m ((c.tc : Thread nD τ).loc main_arg3)) shapeCasts_S128_S1x128
abbrev b1r (c : Dev nD) : Mat 1 128 := shapeCast S1x128 (m ((c.tc : Thread nD τ).loc main_arg5)) shapeCasts_S128_S1x128
abbrev bpr (c : Dev nD) : Mat 1 128 := shapeCast S1x128 (m ((c.tc : Thread nD τ).loc main_arg7)) shapeCasts_S128_S1x128
/-- The top and bottom halves of `Wp`. -/
abbrev wpT (c : Dev nD) : Mat 128 128 :=
  extractStridedSlice S128x128 ![0, 0] (m ((c.tc : Thread nD τ).loc main_arg6)) slices_S256x128_S128x128_0_0
abbrev wpB (c : Dev nD) : Mat 128 128 :=
  extractStridedSlice S128x128 ![128, 0] (m ((c.tc : Thread nD τ).loc main_arg6)) slices_S256x128_S128x128_128_0

/-! ## After the host stretch (the projection region's entry) -/

theorem V1_x (c : Dev nD) : V1 m ρ c main_arg0 = aX m c := by
  show StableHlo.after hostOps0 (W0 m ρ c) (Proc.devRef .tc main_arg0) = _
  after_results
theorem V1_S (c : Dev nD) : V1 m ρ c main_arg1 = aS m c := by
  show StableHlo.after hostOps0 (W0 m ρ c) (Proc.devRef .tc main_arg1) = _
  after_results
theorem V1_W0 (c : Dev nD) : V1 m ρ c main_arg2 = aW0 m c := by
  show StableHlo.after hostOps0 (W0 m ρ c) (Proc.devRef .tc main_arg2) = _
  after_results
theorem V1_W1 (c : Dev nD) : V1 m ρ c main_arg4 = aW1 m c := by
  show StableHlo.after hostOps0 (W0 m ρ c) (Proc.devRef .tc main_arg4) = _
  after_results
theorem V1_b0 (c : Dev nD) : V1 m ρ c main_v0 = b0r m c := by
  show StableHlo.after hostOps0 (W0 m ρ c) (Proc.devRef .tc main_v0) = _
  after_results
  rfl
theorem V1_b1 (c : Dev nD) : V1 m ρ c main_v1 = b1r m c := by
  show StableHlo.after hostOps0 (W0 m ρ c) (Proc.devRef .tc main_v1) = _
  after_results
  rfl
theorem V1_bp (c : Dev nD) : V1 m ρ c main_v2 = bpr m c := by
  show StableHlo.after hostOps0 (W0 m ρ c) (Proc.devRef .tc main_v2) = _
  after_results
  rfl
theorem V1_wpT (c : Dev nD) : V1 m ρ c main_v3 = wpT m c := by
  show StableHlo.after hostOps0 (W0 m ρ c) (Proc.devRef .tc main_v3) = _
  after_results
theorem V1_wpB (c : Dev nD) : V1 m ρ c main_v4 = wpB m c := by
  show StableHlo.after hostOps0 (W0 m ρ c) (Proc.devRef .tc main_v4) = _
  after_results

/-! ## After the projection region (the first aggregation region's entry) -/

/-- The projection's result: `x · W0`. -/
theorem V2_g0 (c : Dev nD) : V2 m ρ c main_v5 = mul (r := 10000) (k := 128) (c := 128) (aX m c) (aW0 m c) := by
  refine ((W2_arr m ρ c 2).trans (RegionValue.final0 (V1 m ρ) c)).trans ?_
  show mul (r := 10000) (k := 128) (c := 128) (V1 m ρ c main_arg0) (V1 m ρ c main_arg2) = _
  rw [V1_x, V1_W0]
theorem V2_S (c : Dev nD) : V2 m ρ c main_arg1 = aS m c := (W2_of_ne m ρ c main_arg1 (by decide)).trans (V1_S m ρ c)
theorem V2_W1 (c : Dev nD) : V2 m ρ c main_arg4 = aW1 m c := (W2_of_ne m ρ c main_arg4 (by decide)).trans (V1_W1 m ρ c)
theorem V2_b0 (c : Dev nD) : V2 m ρ c main_v0 = b0r m c := (W2_of_ne m ρ c main_v0 (by decide)).trans (V1_b0 m ρ c)
theorem V2_b1 (c : Dev nD) : V2 m ρ c main_v1 = b1r m c := (W2_of_ne m ρ c main_v1 (by decide)).trans (V1_b1 m ρ c)
theorem V2_bp (c : Dev nD) : V2 m ρ c main_v2 = bpr m c := (W2_of_ne m ρ c main_v2 (by decide)).trans (V1_bp m ρ c)
theorem V2_wpT (c : Dev nD) : V2 m ρ c main_v3 = wpT m c := (W2_of_ne m ρ c main_v3 (by decide)).trans (V1_wpT m ρ c)
theorem V2_wpB (c : Dev nD) : V2 m ρ c main_v4 = wpB m c := (W2_of_ne m ρ c main_v4 (by decide)).trans (V1_wpB m ρ c)

/-! ## After the first aggregation region (the second's entry) -/

/-- The first layer's embedding, of the launch arrays. -/
abbrev emb0 (c : Dev nD) : Mat 10000 128 := h0 (aX m c) (aS m c) (aW0 m c) (b0r m c)
/-- The second layer's embedding, of the launch arrays. -/
abbrev emb1 (c : Dev nD) : Mat 10000 128 := h1 (aX m c) (aS m c) (aW0 m c) (b0r m c) (aW1 m c) (b1r m c)

/-- The layer output the first aggregation region computes is the first embedding. -/
theorem H1_eq (c : Dev nD) : RegionValue1.H (V2 m ρ) c = emb0 m c := by
  show layer (n := 10000) (k := 10000) (d := 128) (V2 m ρ c main_arg1) (V2 m ρ c main_v5) (V2 m ρ c main_v0) = _
  rw [V2_S, V2_g0, V2_b0]
  rfl

theorem V3_next (c : Dev nD) : V3 m ρ c main_v6_0 = mul (r := 10000) (k := 128) (c := 128) (emb0 m c) (aW1 m c) := by
  refine ((W3_arr m ρ c 6).trans (RegionValue1.final_next (V2 m ρ) c)).trans ?_
  show mul (r := 10000) (k := 128) (c := 128) (RegionValue1.H (V2 m ρ) c) (V2 m ρ c main_arg4) = _
  rw [H1_eq, V2_W1]
theorem V3_part (c : Dev nD) :
    V3 m ρ c main_v6_1 = addRow (mul (r := 10000) (k := 128) (c := 128) (emb0 m c) (wpT m c)) (bpr m c) := by
  refine ((W3_arr m ρ c 7).trans (RegionValue1.final_part (V2 m ρ) c)).trans ?_
  show addRow (mul (r := 10000) (k := 128) (c := 128) (RegionValue1.H (V2 m ρ) c) (V2 m ρ c main_v3)) (V2 m ρ c main_v2) = _
  rw [H1_eq, V2_wpT, V2_bp]
theorem V3_S (c : Dev nD) : V3 m ρ c main_arg1 = aS m c :=
  ((W3_arr m ρ c 0).trans (((dat1 (V2 m ρ) c).arrAt_in 0 rfl _).trans (A_eq1 (V2 m ρ) c 0))).trans (V2_S m ρ c)
theorem V3_b1 (c : Dev nD) : V3 m ρ c main_v1 = b1r m c := (W3_of_ne m ρ c main_v1 (by decide)).trans (V2_b1 m ρ c)
theorem V3_wpB (c : Dev nD) : V3 m ρ c main_v4 = wpB m c := (W3_of_ne m ρ c main_v4 (by decide)).trans (V2_wpB m ρ c)

/-! ## After the second aggregation region: the result -/

/-- The layer output the second aggregation region computes is the second embedding. -/
theorem H2_eq (c : Dev nD) : RegionValue2.H (V3 m ρ) c = emb1 m c := by
  show layer (n := 10000) (k := 10000) (d := 128) (V3 m ρ c main_arg1) (V3 m ρ c main_v6_0) (V3 m ρ c main_v1) = _
  rw [V3_S, V3_next, V3_b1]
  rfl

/-- The partial output the second aggregation region finds. -/
theorem Part_eq (c : Dev nD) :
    RegionValue2.Part (V3 m ρ) c = addRow (mul (r := 10000) (k := 128) (c := 128) (emb0 m c) (wpT m c)) (bpr m c) :=
  V3_part m ρ c

/-- THE RESULT ARRAY at the last boundary: `(h0 · WpT + bp) + h1 · WpB` of the launch arrays. -/
theorem result (c : Dev nD) :
    W4 m ρ c (Proc.devRef .tc main_v7) = splitOut (emb0 m c) (emb1 m c) (wpT m c) (wpB m c) (bpr m c) := by
  refine ((W4_arr m ρ c 5).trans (RegionValue2.final_out (V3 m ρ) c)).trans ?_
  funext i
  show RegionValue2.Part (V3 m ρ) c i + mul (r := 10000) (k := 128) (c := 128) (RegionValue2.H (V3 m ρ) c) (V3 m ρ c main_v4) i = _
  rw [Part_eq, H2_eq, V3_wpB]
  rfl

end Cert.KernelIdeal.Chain

end
-- ==== Proof.RefValue.lean ====
/-
  The reference's result as the specification's matrix expression.

  The reference's run, read one operation at a time, is: two products and a bias add under a maximum against zero
  (the first embedding), the same once more on the first embedding (the second), the two embeddings concatenated
  along the columns, the product with `Wp`, and the bias add. Each stage is identified with the specification's
  function entry by entry: a `dot_general`'s operand indices are the pairs (i₀, k) and (k, i₁), the two broadcasts
  of a bias vector read it at the column, and the concatenation reads its first piece on columns below 128 and its
  second piece, 128 columns to the left, on the others.
-/
import proofs.«160552_g65979287601806_cont_sun_c4_486_5_alg».proof.Proof.Gen.ReferenceIdeal.Run
import proofs.«160552_g65979287601806_cont_sun_c4_486_5_alg».proof.Proof.Gen.ReferenceIdeal.Read
import proofs.«160552_g65979287601806_cont_sun_c4_486_5_alg».proof.Proof.GraphLayers
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.GraphLayers
open Idealize.ShloMosaic Idealize.ShloMosaic.ValueIdx

/-- A product stage: a sum over k of left(i₀, k) · right(k, i₁), however the two operand indices are spelt. -/
theorem mul_stage {r k c : Nat} (A : Mat r k) (B : Mat k c) (i : (⟨2, ![r, c]⟩ : Shape).Idx)
    (L : Fin k → (⟨2, ![r, k]⟩ : Shape).Idx) (R : Fin k → (⟨2, ![k, c]⟩ : Shape).Idx)
    (hL : ∀ l, L l = ix2 (i 0) l) (hR : ∀ l, R l = ix2 l (i 1)) :
    ∑ l : Fin k, A (L l) * B (R l) = mul A B i := by
  unfold mul
  exact Finset.sum_congr rfl fun l _ => congrArg₂ (· * ·) (congrArg A (hL l)) (congrArg B (hR l))

variable (x : (⟨S10000x128, .f32⟩ : BufTy).Contents (Elt Ideal)) (S : (⟨S10000x10000, .f32⟩ : BufTy).Contents (Elt Ideal))
  (W0 : (⟨S128x128, .f32⟩ : BufTy).Contents (Elt Ideal)) (b0 : (⟨S128, .f32⟩ : BufTy).Contents (Elt Ideal))
  (W1 : (⟨S128x128, .f32⟩ : BufTy).Contents (Elt Ideal)) (b1 : (⟨S128, .f32⟩ : BufTy).Contents (Elt Ideal))
  (Wp : (⟨S256x128, .f32⟩ : BufTy).Contents (Elt Ideal)) (bp : (⟨S128, .f32⟩ : BufTy).Contents (Elt Ideal))

/-- `x · W0`. -/
theorem stage0 : val_main_v0 (F := Ideal) x W0 = mul (r := 10000) (k := 128) (c := 128) x W0 := by
  funext i
  rw [val_main_v0_apply]
  exact mul_stage (r := 10000) (k := 128) (c := 128) x W0 i _ _
    (fun l => funext fun a => by match a with | ⟨0, _⟩ => rfl | ⟨1, _⟩ => rfl)
    (fun l => funext fun a => by match a with | ⟨0, _⟩ => rfl | ⟨1, _⟩ => rfl)

/-- The first embedding. -/
theorem stage5 : val_main_v5 (F := Ideal) x S W0 b0 = h0 x S W0 (row b0) := by
  funext i
  rw [val_main_v5_apply, val_main_v4_apply, val_main_v1_apply, val_main_v3_apply, val_main_v2_apply,
    val_main_call0_v0_apply, val_main_call0_cst_apply, stage0]
  show max ((∑ k : Fin 10000, S (lidx_main_v1 i k) * mul (r := 10000) (k := 128) (c := 128) x W0 (ridx_main_v1 i k))
      + b0 (idx_main_v2 (idx_main_v3 i))) zero = _
  rw [mul_stage (r := 10000) (k := 10000) (c := 128) S (mul (r := 10000) (k := 128) (c := 128) x W0) i _ _
    (fun l => funext fun a => by match a with | ⟨0, _⟩ => rfl | ⟨1, _⟩ => rfl)
    (fun l => funext fun a => by match a with | ⟨0, _⟩ => rfl | ⟨1, _⟩ => rfl)]
  have hb : idx_main_v2 (idx_main_v3 i) = ix1 (i 1) := funext fun a => by match a with | ⟨0, _⟩ => rfl
  rw [hb]
  rfl

/-- `h0 · W1`. -/
theorem stage6 : val_main_v6 (F := Ideal) x S W0 b0 W1 = mul (r := 10000) (k := 128) (c := 128) (h0 x S W0 (row b0)) W1 := by
  funext i
  rw [val_main_v6_apply, stage5]
  exact mul_stage (r := 10000) (k := 128) (c := 128) (h0 x S W0 (row b0)) W1 i _ _
    (fun l => funext fun a => by match a with | ⟨0, _⟩ => rfl | ⟨1, _⟩ => rfl)
    (fun l => funext fun a => by match a with | ⟨0, _⟩ => rfl | ⟨1, _⟩ => rfl)

/-- The second embedding. -/
theorem stage11 : val_main_v11 (F := Ideal) x S W0 b0 W1 b1 = h1 x S W0 (row b0) W1 (row b1) := by
  funext i
  rw [val_main_v11_apply, val_main_v10_apply, val_main_v7_apply, val_main_v9_apply, val_main_v8_apply,
    val_main_call1_v0_apply, val_main_call1_cst_apply, stage6]
  show max ((∑ k : Fin 10000, S (lidx_main_v7 i k)
        * mul (r := 10000) (k := 128) (c := 128) (h0 x S W0 (row b0)) W1 (ridx_main_v7 i k))
      + b1 (idx_main_v8 (idx_main_v9 i))) zero = _
  rw [mul_stage (r := 10000) (k := 10000) (c := 128) S (mul (r := 10000) (k := 128) (c := 128) (h0 x S W0 (row b0)) W1) i _ _
    (fun l => funext fun a => by match a with | ⟨0, _⟩ => rfl | ⟨1, _⟩ => rfl)
    (fun l => funext fun a => by match a with | ⟨0, _⟩ => rfl | ⟨1, _⟩ => rfl)]
  have hb : idx_main_v8 (idx_main_v9 i) = ix1 (i 1) := funext fun a => by match a with | ⟨0, _⟩ => rfl
  rw [hb]
  rfl

/-- The two embeddings side by side. -/
theorem stage12 : val_main_v12 (F := Ideal) x S W0 b0 W1 b1 = join (h0 x S W0 (row b0)) (h1 x S W0 (row b0) W1 (row b1)) := by
  funext i
  unfold val_main_v12
  rw [stage5, stage11]
  unfold join
  have hi := idx2_lt1 i
  by_cases h : (i 1).val < 128
  · rw [dif_pos h]
    refine concatenate_pair_apply_left (t := S10000x256) (s₁ := S10000x128) (s₂ := S10000x128) (1 : Fin 2)
      (h0 x S W0 (row b0)) (h1 x S W0 (row b0) W1 (row b1)) concatenates_S10000x128_S10000x128_S10000x256_d1 i rfl
      (ix2 (i 0) (⟨(i 1).val, h⟩ : Fin 128)) fun b => ?_
    match b with
    | ⟨0, _⟩ => rfl
    | ⟨1, _⟩ => rfl
  · rw [dif_neg h]
    refine concatenate_pair_apply_right (t := S10000x256) (s₁ := S10000x128) (s₂ := S10000x128) (1 : Fin 2)
      (h0 x S W0 (row b0)) (h1 x S W0 (row b0) W1 (row b1)) concatenates_S10000x128_S10000x128_S10000x256_d1 i rfl rfl
      (ix2 (i 0) (⟨(i 1).val - 128, by omega⟩ : Fin 128)) (fun b hb => ?_) ?_
    · match b with
      | ⟨0, _⟩ => rfl
      | ⟨1, _⟩ => exact absurd rfl hb
    · show (i 1).val - 128 + 128 = (i 1).val
      omega

/-- THE REFERENCE'S RESULT: `[h0 | h1] · Wp + bp`. -/
theorem result : val_main_v16 (F := Ideal) x S W0 b0 W1 b1 Wp bp
    = joinedOut (h0 x S W0 (row b0)) (h1 x S W0 (row b0) W1 (row b1)) Wp (row bp) := by
  funext i
  rw [val_main_v16_apply, val_main_v13_apply, val_main_v15_apply, val_main_v14_apply, stage12]
  show (∑ k : Fin 256, join (h0 x S W0 (row b0)) (h1 x S W0 (row b0) W1 (row b1)) (lidx_main_v13 i k) * Wp (ridx_main_v13 i k))
      + bp (idx_main_v14 (idx_main_v15 i)) = _
  rw [mul_stage (r := 10000) (k := 256) (c := 128) (join (h0 x S W0 (row b0)) (h1 x S W0 (row b0) W1 (row b1))) Wp i _ _
    (fun l => funext fun a => by match a with | ⟨0, _⟩ => rfl | ⟨1, _⟩ => rfl)
    (fun l => funext fun a => by match a with | ⟨0, _⟩ => rfl | ⟨1, _⟩ => rfl)]
  have hb : idx_main_v14 (idx_main_v15 i) = ix1 (i 1) := funext fun a => by match a with | ⟨0, _⟩ => rfl
  rw [hb]
  rfl

end Cert.ReferenceIdeal.RefValue

end
-- ==== Proof.Bridge.lean ====
/-
  The host-side layout steps of the kernel, read entry by entry, and the two arrangements joined.

  The kernel reshapes each bias vector into a 1 × 128 row (the same entries), and slices `Wp` into its top 128 rows and
  its bottom 128 rows. With those readings the kernel's `(h0 · WpT + bp) + h1 · WpB` is the reference's
  `[h0 | h1] · Wp + bp` (Proof/GraphLayers.lean `splitOut_eq_joinedOut`).
-/
import proofs.«160552_g65979287601806_cont_sun_c4_486_5_alg».proof.Proof.GraphLayers
import Idealize.ShloMosaic.Lib.Pipeline.Value
import Idealize.ShloMosaic.Lib.ValueIdx

noncomputable section

namespace Cert.GraphLayers

open Idealize.ShloMosaic Idealize.ShloMosaic.ValueIdx

/-- A 128-vector reshaped to 1 × 128 is that vector as a row. -/
theorem reshape_row (b : (⟨1, ![128]⟩ : Shape).Idx → EReal) (h : (⟨1, ![128]⟩ : Shape).ShapeCasts ⟨2, ![1, 128]⟩) :
    shapeCast ⟨2, ![1, 128]⟩ b h = row b := by
  funext i
  unfold row
  refine shapeCast_apply b h i (ix1 (i 1)) ?_
  rw [Shape.rowMajor_val_one, Shape.rowMajor_val_two]
  have h0 : (i 0).val < 1 := idx2_lt0 i
  show (i 1).val = (i 0).val * 128 + (i 1).val
  omega

/-- Rows 0 … 127 of `Wp`. -/
theorem slice_top (Wp : Mat 256 128) (h : (⟨2, ![256, 128]⟩ : Shape).Slices ![0, 0] ⟨2, ![128, 128]⟩) (l q : Fin 128) :
    extractStridedSlice ⟨2, ![128, 128]⟩ ![0, 0] Wp h (ix2 l q) = Wp (ix2 (⟨l.val, by omega⟩ : Fin 256) q) := by
  refine extractStridedSlice_apply _ Wp h (ix2 l q) _ fun a => ?_
  match a with
  | ⟨0, _⟩ => show l.val = 0 + l.val; omega
  | ⟨1, _⟩ => show q.val = 0 + q.val; omega

/-- Rows 128 … 255 of `Wp`. -/
theorem slice_bottom (Wp : Mat 256 128) (h : (⟨2, ![256, 128]⟩ : Shape).Slices ![128, 0] ⟨2, ![128, 128]⟩) (l q : Fin 128) :
    extractStridedSlice ⟨2, ![128, 128]⟩ ![128, 0] Wp h (ix2 l q) = Wp (ix2 (⟨l.val + 128, by omega⟩ : Fin 256) q) := by
  refine extractStridedSlice_apply _ Wp h (ix2 l q) _ fun a => ?_
  match a with
  | ⟨0, _⟩ => show l.val + 128 = 128 + l.val; omega
  | ⟨1, _⟩ => show q.val = 0 + q.val; omega

/-- THE TWO PROGRAMS COMPUTE ONE FUNCTION: the kernel's arrangement over reshaped biases and the two halves of `Wp`
    is the reference's over the bias vectors as rows and the whole `Wp`. -/
theorem kernel_eq_reference (x : Mat 10000 128) (S : Mat 10000 10000) (W0 W1 : Mat 128 128) (Wp : Mat 256 128)
    (b0 b1 bp : (⟨1, ![128]⟩ : Shape).Idx → EReal)
    (hc : (⟨1, ![128]⟩ : Shape).ShapeCasts ⟨2, ![1, 128]⟩)
    (hT : (⟨2, ![256, 128]⟩ : Shape).Slices ![0, 0] ⟨2, ![128, 128]⟩)
    (hB : (⟨2, ![256, 128]⟩ : Shape).Slices ![128, 0] ⟨2, ![128, 128]⟩) :
    splitOut (h0 x S W0 (shapeCast ⟨2, ![1, 128]⟩ b0 hc))
        (h1 x S W0 (shapeCast ⟨2, ![1, 128]⟩ b0 hc) W1 (shapeCast ⟨2, ![1, 128]⟩ b1 hc))
        (extractStridedSlice ⟨2, ![128, 128]⟩ ![0, 0] Wp hT) (extractStridedSlice ⟨2, ![128, 128]⟩ ![128, 0] Wp hB)
        (shapeCast ⟨2, ![1, 128]⟩ bp hc)
      = joinedOut (h0 x S W0 (row b0)) (h1 x S W0 (row b0) W1 (row b1)) Wp (row bp) := by
  rw [reshape_row b0 hc, reshape_row b1 hc, reshape_row bp hc]
  exact splitOut_eq_joinedOut _ _ _ _ Wp (row bp) (slice_top Wp hT) (slice_bottom Wp hB)

end Cert.GraphLayers

end
-- ==== Proof.lean ====
/-
  A two-layer dense graph-convolution network with its two layer embeddings concatenated and projected:

      h0  = max (S · (x · W0) + b0, 0)
      h1  = max (S · (h0 · W1) + b1, 0)
      out = [h0 | h1] · Wp + bp.

  The kernel runs three regions. The first computes `x · W0`. The second, 400 rows of `S` at a time, computes the
  block of `h0`, and from it the blocks of `h0 · W1` and of the partial output `h0 · WpT + bp`, `WpT` the top half of
  `Wp`. The third, again 400 rows at a time, computes the block of `h1` and adds `h1 · WpB`, `WpB` the bottom half,
  onto the partial output. The reference computes the three lines above as they stand.

  On the extended reals a change of float format is the identity and every product is the exact sum of products, so
  the kernel's result is `(h0 · WpT + bp) + h1 · WpB` (Proof/Chain.lean, over the three regions' result arrays:
  Proof/Region0.lean, Region1.lean, Region2.lean) and the reference's is `[h0 | h1] · Wp + bp` (Proof/RefValue.lean).
  The two agree because a sum over the 256 columns of the concatenation is the sum over its first 128 columns plus the
  sum over its last 128, and addition of extended reals is commutative and associative (Proof/GraphLayers.lean,
  Proof/Bridge.lean); no finiteness of the inputs is used.

  The three frame claims are the generated frames of the two kernel programs and the reference's run with its result
  dropped; the idealization rewrote nothing, so `preserves` is `True`.
-/
import proofs.«160552_g65979287601806_cont_sun_c4_486_5_alg».proof.Defs
import proofs.«160552_g65979287601806_cont_sun_c4_486_5_alg».proof.Proof.Gen.Kernel
import proofs.«160552_g65979287601806_cont_sun_c4_486_5_alg».proof.Proof.Gen.Kernel.Frame
import proofs.«160552_g65979287601806_cont_sun_c4_486_5_alg».proof.Proof.Gen.KernelIdeal
import proofs.«160552_g65979287601806_cont_sun_c4_486_5_alg».proof.Proof.Gen.KernelIdeal.Frame
import proofs.«160552_g65979287601806_cont_sun_c4_486_5_alg».proof.Proof.Gen.ReferenceIdeal
import proofs.«160552_g65979287601806_cont_sun_c4_486_5_alg».proof.Proof.Gen.ReferenceIdeal.Run
import proofs.«160552_g65979287601806_cont_sun_c4_486_5_alg».proof.Proof.Gen.ReferenceIdeal.Read
import proofs.«160552_g65979287601806_cont_sun_c4_486_5_alg».proof.Proof.Gen.Pre_finite_inputs
import proofs.«160552_g65979287601806_cont_sun_c4_486_5_alg».proof.Proof.KernelRun
import proofs.«160552_g65979287601806_cont_sun_c4_486_5_alg».proof.Proof.Chain
import proofs.«160552_g65979287601806_cont_sun_c4_486_5_alg».proof.Proof.RefValue
import proofs.«160552_g65979287601806_cont_sun_c4_486_5_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `(h0 · WpT + bp) + h1 · WpB` of the (agreeing) argument arrays in their result array: the
    kernel by its three regions' values, the reference by its run read stage by stage and the two arrangements'
    agreement. -/
theorem algebraic : Cert.algebraic_KernelIdeal_ReferenceIdeal := by
  intro m ρ m' ρ' _ hagree
  refine ⟨fun c => Cert.GraphLayers.splitOut (Cert.KernelIdeal.Chain.emb0 m c) (Cert.KernelIdeal.Chain.emb1 m c)
    (Cert.KernelIdeal.Chain.wpT m c) (Cert.KernelIdeal.Chain.wpB m c) (Cert.KernelIdeal.Chain.bpr m c), ?_, ?_⟩
  · exact (θ_run Cert.KernelIdeal.defs _ _).mono
      (fun r h c => ⟨(h c).1.trans (Cert.KernelIdeal.Chain.result m ρ c), (h c).2⟩)
      (Cert.KernelIdeal.GenP.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v16_eq, Cert.ReferenceIdeal.RefValue.result, e0, e1, e2, e3, e4, e5, e6, e7]
    exact (Cert.GraphLayers.kernel_eq_reference _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
